-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1x8192 .f32) (main_arg1 : FVec F S8192x8192 .f32) (main_arg2 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S1x8192 : Shape := ⟨2, ![1, 8192]⟩
abbrev S8192x8192 : Shape := ⟨2, ![8192, 8192]⟩
abbrev S8192 : Shape := ⟨1, ![8192]⟩
abbrev S1x2048 : Shape := ⟨2, ![1, 2048]⟩
abbrev S2048x1024 : Shape := ⟨2, ![2048, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S1x8192, .f32⟩
  | .hbm, ⟨4, _⟩ => ⟨S1x8192, .f32⟩
  | .local _ .vmem, ⟨0, _⟩ => ⟨S1x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S1x8192 : S8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048_S1x2048_0_0 : ∀ a, (![0, 0] : Fin 2 → Nat) a + S1x2048.size a ≤ S1x2048.size a
  h_S1x2048 : 0 < S1x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x8192.size a
  hwx0_0 : ∀ i : grid0.Coords, EltTy.bits .f32 = 32 ∨ (Rect.block (s := S1x8192) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)

variable [Facts₀]

def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩

abbrev nBuf : Space → Nat
  | .hbm => 6
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S1x8192, .f32⟩
  | .hbm, ⟨4, _⟩ => ⟨S1x8192, .f32⟩
  | .hbm, ⟨5, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Pieces.lean ====
/-
  What one run of the body leaves behind, case by case, as compositions of the body's three pure payloads
  (at any float instance). The body zeroes the accumulator at the first row run of a column run, adds the
  current row run's partial product at every point, and at the last row run writes accumulator plus bias to
  the output block. So:
    first row run   : accumulator := (zero) + partial product
    middle row runs : accumulator := (what the point before left) + partial product
    last row run    : accumulator likewise, and output block := (that new accumulator) + bias block.
  Each store covers its whole buffer, so what a buffer holds afterwards is the last store's payload, and a
  load after a covering store reads that store's payload.
-/
import proofs.«168211_j68332929679499_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access, however they are spelt. -/
theorem hz : (![0, 0] : Fin 2 → Nat) = fun _ => 0 := funext fun a => by fin_cases a <;> rfl

/-- First row run: the accumulator ends at the partial product added to the zero fill. -/
theorem acc_first (c : Dev nD) (i : grid0.Coords) (arg2 : Memref sig .tc .vmem S1x2048 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : cond0_0 i) (hc1 : ¬cond0_1 i) (x0 : Vec F S1x2048 .f32) (x1 : Vec F S2048x1024 .f32) (x2 : Vec F S1x1024 .f32) :
    sout0_A_0 c i arg2 harg2 arg3 harg3 arg4 harg4 arg5 harg5 arg6 harg6 hc0 hc1 x0 x1 x2 = k0_pay2 x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1024) hz]
  simp only [View.readAt_eq_ld, harg2.read_unread, harg3.read_unread, harg4.read_unread, harg6.read_unread,
    View.ld_unit_zero (S := S1x2048) hz, View.ld_unit_zero (S := S2048x1024) hz, View.ld_unit_zero (S := S1x1024) hz,
    View.readCov_unit_zero (S := S1x1024) _ hz]

/-- A middle row run: the accumulator ends at the partial product added to what it held. -/
theorem acc_middle (c : Dev nD) (i : grid0.Coords) (arg2 : Memref sig .tc .vmem S1x2048 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : ¬cond0_1 i) (x0 : Vec F S1x2048 .f32) (x1 : Vec F S2048x1024 .f32) (x2 : Vec F S1x1024 .f32) (xs0 : Vec F S1x1024 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x1024) hz]
  simp only [View.readAt_eq_ld, harg2.read_unread, harg3.read_unread, harg4.read_unread, harg6.read_unread,
    View.ld_unit_zero (S := S1x2048) hz, View.ld_unit_zero (S := S2048x1024) hz, View.ld_unit_zero (S := S1x1024) hz,
    View.readCov_unit_zero (S := S1x1024) _ hz]

/-- The last row run: the accumulator as in a middle one, -/
theorem acc_last (c : Dev nD) (i : grid0.Coords) (arg2 : Memref sig .tc .vmem S1x2048 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i) (x0 : Vec F S1x2048 .f32) (x1 : Vec F S2048x1024 .f32) (x2 : Vec F S1x1024 .f32) (xs0 : Vec F S1x1024 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x1024) hz]
  simp only [View.readAt_eq_ld, harg2.read_unread, harg3.read_unread, harg4.read_unread, harg6.read_unread,
    View.ld_unit_zero (S := S1x2048) hz, View.ld_unit_zero (S := S2048x1024) hz, View.ld_unit_zero (S := S1x1024) hz,
    View.readCov_unit_zero (S := S1x1024) _ hz]

/-- and the output block is that new accumulator plus the bias block. -/
theorem out_last (c : Dev nD) (i : grid0.Coords) (arg2 : Memref sig .tc .vmem S1x2048 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬cond0_0 i) (hc1 : cond0_1 i) (x0 : Vec F S1x2048 .f32) (x1 : Vec F S2048x1024 .f32) (x2 : Vec F S1x1024 .f32) (xs0 : Vec F S1x1024 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x1024) hz]
  simp only [View.readAt_eq_ld, harg2.read_unread, harg3.read_unread, harg4.read_unread, harg6.read_unread,
    View.ld_unit_zero (S := S1x2048) hz, View.ld_unit_zero (S := S2048x1024) hz, View.ld_unit_zero (S := S1x1024) hz,
    View.readCov_unit_zero (S := S1x1024) _ hz]

end Cert.KernelIdeal.Pieces

end
-- ==== Proof.Payloads.lean ====
/-
  The body's three payloads read at an index, over the extended reals.
  * the fill is zero everywhere;
  * the update at column `q` is the old accumulator there plus `∑ₚ xblk[·,p] · wblk[p,q]` over the 2048 rows of
    the block: the narrowing of both operands to the 16-bit format is the identity on the extended reals, and a
    matrix product into a zero accumulator is the plain sum over the one contracted axis;
  * the epilogue is accumulator plus bias, entry by entry.
-/
import proofs.«168211_j68332929679499_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.TcCoe Idealize.ShloMosaic.ValueIdx

/-! ## The block product's operand indices: output `(r, q)`, contraction `p` ↦ left `(r, p)`, right `(p, q)` -/

theorem lhs_axis0 (i : S1x1024.Idx) (k : dot_S1x2048_S2048x1024_S1x1024_1_0_0_1_n_n.contr.Idx) :
    (dot_S1x2048_S2048x1024_S1x1024_1_0_0_1_n_n.lhsIdx i k 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhs_axis1 (i : S1x1024.Idx) (k : dot_S1x2048_S2048x1024_S1x1024_1_0_0_1_n_n.contr.Idx) :
    (dot_S1x2048_S2048x1024_S1x1024_1_0_0_1_n_n.lhsIdx i k 1).val = (k ⟨0, by decide⟩).val :=
  dot_S1x2048_S2048x1024_S1x1024_1_0_0_1_n_n.lhsIdx_val_of_single rfl i k
theorem rhs_axis0 (i : S1x1024.Idx) (k : dot_S1x2048_S2048x1024_S1x1024_1_0_0_1_n_n.contr.Idx) :
    (dot_S1x2048_S2048x1024_S1x1024_1_0_0_1_n_n.rhsIdx i k 0).val = (k ⟨0, by decide⟩).val :=
  dot_S1x2048_S2048x1024_S1x1024_1_0_0_1_n_n.rhsIdx_val_of_single rfl i k
theorem rhs_axis1 (i : S1x1024.Idx) (k : dot_S1x2048_S2048x1024_S1x1024_1_0_0_1_n_n.contr.Idx) :
    (dot_S1x2048_S2048x1024_S1x1024_1_0_0_1_n_n.rhsIdx i k 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The block product into a zero accumulator, at an entry: the sum over the block's 2048 rows. -/
theorem product_apply (l : FVec Ideal S1x2048 .bf16) (r : FVec Ideal S2048x1024 .bf16) (i : S1x1024.Idx) :
    matmul dot_S1x2048_S2048x1024_S1x1024_1_0_0_1_n_n none l r (constant (F := Ideal) S1x1024 .f32 0x00000000#32) i
      = ∑ p : Fin 2048, l (ix2 (i 0) p) * r (ix2 p (i 1)) := by
  simp only [matmul]
  rw [Ideal.matmul_constant_zero_apply, ← Equiv.sum_comp (ValueIdx.contrEquiv1 dot_S1x2048_S2048x1024_S1x1024_1_0_0_1_n_n 2048 rfl rfl).symm]
  refine Finset.sum_congr rfl fun p _ => ?_
  have hp := ValueIdx.contrEquiv1_symm_val dot_S1x2048_S2048x1024_S1x1024_1_0_0_1_n_n 2048 rfl rfl p
  have el : dot_S1x2048_S2048x1024_S1x1024_1_0_0_1_n_n.lhsIdx i ((ValueIdx.contrEquiv1 dot_S1x2048_S2048x1024_S1x1024_1_0_0_1_n_n 2048 rfl rfl).symm p) = ix2 (i 0) p := funext fun a => Fin.ext (by
    match a with
    | ⟨0, _⟩ => exact lhs_axis0 _ _
    | ⟨1, _⟩ => exact (lhs_axis1 _ _).trans hp)
  have er : dot_S1x2048_S2048x1024_S1x1024_1_0_0_1_n_n.rhsIdx i ((ValueIdx.contrEquiv1 dot_S1x2048_S2048x1024_S1x1024_1_0_0_1_n_n 2048 rfl rfl).symm p) = ix2 p (i 1) := funext fun a => Fin.ext (by
    match a with
    | ⟨0, _⟩ => exact (rhs_axis0 _ _).trans hp
    | ⟨1, _⟩ => exact rhs_axis1 _ _)
  rw [el, er]
  rfl

/-- The fill. -/
theorem fill_apply (i : S1x1024.Idx) : k0_pay1 (F := Ideal) i = 0 := by
  unfold k0_pay1
  refine (congrFun (shapeCast_self _ _) i).trans ?_
  show Ideal.ofBits .f32 0x00000000#32 = 0
  exact Ideal.ofBits_zero_f32

/-- The update. -/
theorem update_apply (x0 : Vec Ideal S1x2048 .f32) (x1 : Vec Ideal S2048x1024 .f32) (acc : Vec Ideal S1x1024 .f32) (i : S1x1024.Idx) :
    k0_pay2 (F := Ideal) x0 x1 acc i = acc i + ∑ p : Fin 2048, x0 (ix2 (i 0) p) * x1 (ix2 p (i 1)) := by
  unfold k0_pay2
  refine (congrFun (shapeCast_self _ _) i).trans ?_
  refine congrArg (acc i + ·) ?_
  exact product_apply (truncf .bf16 x0 bitsLt_bf16_f32) (truncf .bf16 x1 bitsLt_bf16_f32) i

/-- The epilogue. -/
theorem epilogue_apply (acc : Vec Ideal S1x1024 .f32) (bias : Vec Ideal S1x1024 .f32) (i : S1x1024.Idx) :
    k0_pay3 (F := Ideal) acc bias i = acc i + bias i := by
  unfold k0_pay3
  show acc i + shapeCast S1x1024 bias shapeCasts_S1x1024_S1x1024 i = _
  rw [shapeCast_self]

end Cert.KernelIdeal.Payloads

end
-- ==== Proof.Blocks.lean ====
/-
  Which entries of the arrays a grid point's blocks hold. Point `t` is column run `t / 4`, row run `t % 4`:
    the row vector's block is its entries `2048·(t % 4) …`,
    the matrix's block is rows `2048·(t % 4) …` by columns `1024·(t / 4) …`,
    the bias's and the output's blocks are columns `1024·(t / 4) …`.
  A block's coordinate in the array is always (block index) × (block size) + (coordinate inside the block).
-/
import proofs.«168211_j68332929679499_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ)

/-- The arrays as the region finds them, and a point's input blocks, at their literal types. -/
abbrev xarr (c : Dev nD) : Vec Ideal S1x8192 .f32 := V m c main_arg0
abbrev warr (c : Dev nD) : Vec Ideal S8192x8192 .f32 := V m c main_arg1
abbrev barr (c : Dev nD) : Vec Ideal S1x8192 .f32 := V m c main_v0
abbrev xblk (c : Dev nD) (t : Fin cfg0.N) : Vec Ideal S1x2048 .f32 := iblk m c 0 t
abbrev wblk (c : Dev nD) (t : Fin cfg0.N) : Vec Ideal S2048x1024 .f32 := iblk m c 1 t
abbrev bblk (c : Dev nD) (t : Fin cfg0.N) : Vec Ideal S1x1024 .f32 := iblk m c 2 t

/-- The four index maps over the grid, in closed form. -/
theorem index_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The row vector's block. -/
theorem xblk_apply (c : Dev nD) (t : Fin cfg0.N) (r : Fin 1) (p : Fin 2048) (h : 2048 * (t.val % 4) + p.val < 8192) :
    xblk m c t (ix2 r p) = xarr m c (ix2 r ⟨2048 * (t.val % 4) + p.val, h⟩) := by
  obtain ⟨e0, e1, -⟩ := index_facts t
  show V m c main_arg0 (((cfg0.win 0).blk t).view.emb (ix2 r p)) = V m c main_arg0 _
  refine congrArg (V m c main_arg0) (funext fun a => Fin.ext ?_)
  match a with
  | ⟨0, _⟩ => show win0_0.index t (0 : Fin 2) * 1 + 1 * r.val = r.val; rw [e0]; omega
  | ⟨1, _⟩ => show win0_0.index t (1 : Fin 2) * 2048 + 1 * p.val = 2048 * (t.val % 4) + p.val; rw [e1]; omega

/-- The matrix's block. -/
theorem wblk_apply (c : Dev nD) (t : Fin cfg0.N) (p : Fin 2048) (q : Fin 1024)
    (hp : 2048 * (t.val % 4) + p.val < 8192) (hq : 1024 * (t.val / 4) + q.val < 8192) :
    wblk m c t (ix2 p q) = warr m c (ix2 ⟨2048 * (t.val % 4) + p.val, hp⟩ ⟨1024 * (t.val / 4) + q.val, hq⟩) := by
  obtain ⟨-, -, e2, e3, -⟩ := index_facts t
  show V m c main_arg1 (((cfg0.win 1).blk t).view.emb (ix2 p q)) = V m c main_arg1 _
  refine congrArg (V m c main_arg1) (funext fun a => Fin.ext ?_)
  match a with
  | ⟨0, _⟩ => show win0_1.index t (0 : Fin 2) * 2048 + 1 * p.val = 2048 * (t.val % 4) + p.val; rw [e2]; omega
  | ⟨1, _⟩ => show win0_1.index t (1 : Fin 2) * 1024 + 1 * q.val = 1024 * (t.val / 4) + q.val; rw [e3]; omega

/-- The bias's block. -/
theorem bblk_apply (c : Dev nD) (t : Fin cfg0.N) (r : Fin 1) (q : Fin 1024) (hq : 1024 * (t.val / 4) + q.val < 8192) :
    bblk m c t (ix2 r q) = barr m c (ix2 r ⟨1024 * (t.val / 4) + q.val, hq⟩) := by
  obtain ⟨-, -, -, -, e4, e5, -⟩ := index_facts t
  show V m c main_v0 (((cfg0.win 2).blk t).view.emb (ix2 r q)) = V m c main_v0 _
  refine congrArg (V m c main_v0) (funext fun a => Fin.ext ?_)
  match a with
  | ⟨0, _⟩ => show win0_2.index t (0 : Fin 2) * 1 + 1 * r.val = r.val; rw [e4]; omega
  | ⟨1, _⟩ => show win0_2.index t (1 : Fin 2) * 1024 + 1 * q.val = 1024 * (t.val / 4) + q.val; rw [e5]; omega

/-- The region finds the row vector and the matrix as launched. -/
theorem xarr_eq (c : Dev nD) : xarr m c = m ((c : Thread nD τ).loc main_arg0) := V_main_arg0 m c
theorem warr_eq (c : Dev nD) : warr m c = m ((c : Thread nD τ).loc main_arg1) := V_main_arg1 m c

/-- Before the region the bias `[8192]` is laid out as one row `[1, 8192]`: entry `(r, n)` of the row is the
    bias's entry `n` (same row-major position). -/
theorem barr_apply (c : Dev nD) (r : Fin 1) (n : Fin 8192) :
    barr m c (ix2 r n) = m ((c : Thread nD τ).loc main_arg2) (ix1 n) := by
  have e : (V m c main_v0 : S1x8192.Idx → EReal)
      = shapeCast S1x8192 (m ((c : Thread nD τ).loc main_arg2)) shapeCasts_S8192_S1x8192 := by
    dsimp only [V, hostOps0]; after_results; rfl
  show V m c main_v0 (ix2 r n) = _
  rw [e]
  refine shapeCast_apply _ _ (ix2 r n) (ix1 n) ?_
  rw [Shape.rowMajor_val_one, Shape.rowMajor_val_two]
  show n.val = r.val * 8192 + n.val
  have := r.isLt
  omega

end Cert.KernelIdeal.Blocks

end
-- ==== Proof.LibBlockedSum.lean ====
/-
  GENERAL LEMMA (no program imported). A sum over the first `n * k` naturals taken `n` at a time: the `k` consecutive runs of length `n`
  partition `0 … n·k − 1`, so summing each run and then the runs is the one long sum. Only commutativity and
  associativity of the addition are used, so it holds in every additive commutative monoid — in particular on
  the extended reals, where no cancellation is available.
-/
import Mathlib.Algebra.BigOperators.Group.Finset.Basic
import Mathlib.Data.Fintype.BigOperators

namespace Cert.BlockedSum

open Finset

/-- Run `s` holds the naturals `n·s … n·s + n − 1`; the first `k` runs together are `0 … n·k − 1`. -/
theorem sum_range_blocks {β : Type*} [AddCommMonoid β] (n : ℕ) (f : ℕ → β) (k : ℕ) :
    ∑ s ∈ range k, ∑ p ∈ range n, f (n * s + p) = ∑ i ∈ range (n * k), f i := by
  induction k with
  | zero => simp
  | succ k ih => rw [sum_range_succ, ih, Nat.mul_succ, sum_range_add]

end Cert.BlockedSum
-- ==== Proof.DenseSpec.lean ====
/-
  The dense layer as one function of its arguments over the extended reals: entry `(r, n)` of the result is
  `(∑ₖ x[r,k] · W[k,n]) + b[n]`, the contraction running over all 8192 rows of `W`.

  The blocked evaluation splits the contraction into four runs of 2048 rows and the 8192 columns into eight
  runs of 1024. Grid point `4a + s` handles column run `a` and row run `s`; what it adds to column `1024a + q`
  is `chunk` below. Starting from zero and adding the four row runs of one column run, in order, gives the
  whole contraction (`group_sum`): a regrouping of one finite sum, true in any additive commutative monoid,
  so no entry need be finite.
-/
import Idealize.ShloMosaic.Lib.ValueIdx
import proofs.«168211_j68332929679499_1_alg».proof.Proof.LibBlockedSum

noncomputable section

namespace Cert.DenseSpec

open Idealize.ShloMosaic Idealize.ShloMosaic.ValueIdx Finset

/-- The row vector's, the matrix's and the bias's shapes. -/
abbrev Row : Shape := ⟨2, ![1, 8192]⟩
abbrev Mat : Shape := ⟨2, ![8192, 8192]⟩
abbrev Bias : Shape := ⟨1, ![8192]⟩

/-- `x · W + b`, entry by entry. -/
def dense (x : Row.Idx → EReal) (W : Mat.Idx → EReal) (b : Bias.Idx → EReal) : Row.Idx → EReal :=
  fun i => (∑ k : Fin 8192, x (ix2 (i 0) k) * W (ix2 k (i 1))) + b (ix1 (i 1))

/-- The product `x[0,i] · W[i,col]`, as a function of two naturals (zero off the arrays, where it is never read). -/
def prodAt (x : Row.Idx → EReal) (W : Mat.Idx → EReal) (col i : ℕ) : EReal :=
  if h : i < 8192 ∧ col < 8192 then x (ix2 0 ⟨i, h.1⟩) * W (ix2 ⟨i, h.1⟩ ⟨col, h.2⟩) else 0

/-- What grid point `n` adds to local column `q` of its column run: the products over its 2048 rows. -/
def chunk (x : Row.Idx → EReal) (W : Mat.Idx → EReal) (n q : ℕ) : EReal :=
  ∑ p ∈ range 2048, prodAt x W (1024 * (n / 4) + q) (2048 * (n % 4) + p)

/-- Zero plus the four row runs of column run `a`, at local column `q`, is the whole contraction at column `1024a + q`. -/
theorem group_sum (x : Row.Idx → EReal) (W : Mat.Idx → EReal) (a q : ℕ) (hcol : 1024 * a + q < 8192) :
    (0 : EReal) + ∑ s ∈ range 4, chunk x W (4 * a + s) q
      = ∑ k : Fin 8192, x (ix2 0 k) * W (ix2 k ⟨1024 * a + q, hcol⟩) := by
  rw [zero_add]
  have h1 : ∀ s ∈ range 4, chunk x W (4 * a + s) q
      = ∑ p ∈ range 2048, prodAt x W (1024 * a + q) (2048 * s + p) := by
    intro s hs
    have hs' : s < 4 := mem_range.mp hs
    unfold chunk
    rw [show (4 * a + s) / 4 = a by omega, show (4 * a + s) % 4 = s by omega]
  rw [sum_congr rfl h1, BlockedSum.sum_range_blocks 2048 (prodAt x W (1024 * a + q)) 4,
    show (2048 * 4 : ℕ) = 8192 from rfl, ← Fin.sum_univ_eq_sum_range]
  refine sum_congr rfl fun k _ => ?_
  unfold prodAt
  rw [dif_pos ⟨k.isLt, hcol⟩]

/-- The dense layer's entry in column `1024a + q`, in the blocked form: zero, then the four row runs, then the bias. -/
theorem dense_apply (x : Row.Idx → EReal) (W : Mat.Idx → EReal) (b : Bias.Idx → EReal) (i : Row.Idx) (a q : ℕ)
    (hcol : 1024 * a + q < 8192) (h1 : (i 1).val = 1024 * a + q) :
    dense x W b i = (0 + ∑ s ∈ range 4, chunk x W (4 * a + s) q) + b (ix1 ⟨1024 * a + q, hcol⟩) := by
  have e0 : i 0 = (0 : Fin 1) := Subsingleton.elim (α := Fin 1) _ _
  have e1 : i 1 = (⟨1024 * a + q, hcol⟩ : Fin 8192) := Fin.ext h1
  unfold dense
  rw [e0, e1, group_sum x W a q hcol]

end Cert.DenseSpec

end
-- ==== Proof.KernelValue.lean ====
/-
  What the blocked kernel leaves in its result array, at the extended reals: the dense layer `x · W + b`.

  Grid point `t` is column run `t / 4`, row run `t % 4`; the four points of a column run follow one another.
  The accumulator after point `t` is zero plus the partial products of row runs `0 … t % 4` of that column run
  (it is zeroed at row run 0 and each point adds its own partial product: a fold, read as a sum over the points
  so far). At the last row run the output block is that accumulator plus the bias block, and only there is the
  block written back. The eight written blocks tile the result row, and by the regrouping of the contraction
  into four row runs each holds the dense layer's entries.
-/
import proofs.«168211_j68332929679499_1_alg».proof.Proof.Gen.KernelIdeal.Value
import proofs.«168211_j68332929679499_1_alg».proof.Proof.Pieces
import proofs.«168211_j68332929679499_1_alg».proof.Proof.Payloads
import proofs.«168211_j68332929679499_1_alg».proof.Proof.Blocks
import proofs.«168211_j68332929679499_1_alg».proof.Proof.DenseSpec
import Idealize.ShloMosaic.Lib.Pipeline.Value

noncomputable section

namespace Cert.KernelIdeal.Dense

open Cert.KernelIdeal Cert.KernelIdeal.Gen Cert.KernelIdeal.Value Cert.KernelIdeal.Blocks Cert.DenseSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The dense layer of the launch contents of the three arguments. -/
abbrev result (c : Dev nD) : S1x8192.Idx → EReal :=
  dense (m ((c : Thread nD τ).loc main_arg0)) (m ((c : Thread nD τ).loc main_arg1)) (m ((c : Thread nD τ).loc main_arg2))

/-! ## One point's update of the accumulator -/

/-- At column `q` of the block, point `t` adds the products over ITS 2048 rows of the matrix, in ITS column run. -/
theorem update_at (c : Dev nD) (t : Fin cfg0.N) (acc : Vec Ideal S1x1024 .f32) (i : S1x1024.Idx) :
    k0_pay2 (F := Ideal) (xblk m c t) (wblk m c t) acc i
      = acc i + chunk (xarr m c) (warr m c) t.val (i 1).val := by
  have hN : t.val < 32 := lt_of_lt_of_eq t.isLt (show cfg0.N = 32 from N_0)
  have hq : (i 1).val < 1024 := idx2_lt1 i
  have h2 : 1024 * (t.val / 4) + (i 1).val < 8192 := by omega
  have hi0 : i 0 = (0 : Fin 1) := Subsingleton.elim (α := Fin 1) _ _
  refine (Payloads.update_apply (xblk m c t) (wblk m c t) acc i).trans ?_
  refine congrArg (acc i + ·) ?_
  unfold chunk
  rw [← Fin.sum_univ_eq_sum_range
    (fun p => prodAt (xarr m c) (warr m c) (1024 * (t.val / 4) + (i 1).val) (2048 * (t.val % 4) + p)) 2048]
  refine Finset.sum_congr rfl fun p _ => ?_
  have hp : p.val < 2048 := p.isLt
  have h1 : 2048 * (t.val % 4) + p.val < 8192 := by omega
  show xblk m c t (ix2 (i 0) p) * wblk m c t (ix2 p (i 1))
    = prodAt (xarr m c) (warr m c) (1024 * (t.val / 4) + (i 1).val) (2048 * (t.val % 4) + p.val)
  rw [xblk_apply m c t (i 0) p h1, wblk_apply m c t p (i 1) h1 h2, hi0]
  unfold prodAt
  rw [dif_pos ⟨h1, h2⟩]

/-- The accumulator after the first row run of a column run: the update of the zero fill. -/
theorem scratch_first (c : Dev nD) (n : ℕ) (hb : n < cfg0.N) (h0 : n % 4 = 0) (acc : Vec Ideal S1x1024 .f32) :
    scAt0_0 m c n hb acc = k0_pay2 (F := Ideal) (xblk m c (⟨n, hb⟩ : Fin cfg0.N)) (wblk m c (⟨n, hb⟩ : Fin cfg0.N)) (k0_pay1 (F := Ideal)) := by
  have h1 : ¬ n % 4 = 3 := by omega
  unfold scAt0_0
  rw [dif_pos h0, dif_neg h1]
  exact Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- The accumulator after a later row run: the update of what the point before left. -/
theorem scratch_later (c : Dev nD) (n : ℕ) (hb : n < cfg0.N) (h0 : ¬ n % 4 = 0) (acc : Vec Ideal S1x1024 .f32) :
    scAt0_0 m c n hb acc = k0_pay2 (F := Ideal) (xblk m c (⟨n, hb⟩ : Fin cfg0.N)) (wblk m c (⟨n, hb⟩ : Fin cfg0.N)) acc := by
  unfold scAt0_0
  rw [dif_neg h0]
  by_cases h1 : n % 4 = 3
  · rw [dif_pos h1]
    exact Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact Pieces.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-! ## The accumulator after any point: zero plus the row runs so far -/

theorem scratch_at (c : Dev nD) (t : Fin cfg0.N) (i : S1x1024.Idx) :
    (outsAt0 m c t.val t.isLt).2 i
      = 0 + ∑ s ∈ Finset.range (t.val % 4 + 1), chunk (xarr m c) (warr m c) (4 * (t.val / 4) + s) (i 1).val := by
  have hN : t.val < 32 := lt_of_lt_of_eq t.isLt (show cfg0.N = 32 from N_0)
  have ha : ∀ (h : 4 * (t.val / 4) < cfg0.N) (j : S1x1024.Idx),
      scAt0_0 m c (4 * (t.val / 4)) h (VS0_0.read (Elt Ideal) VS0_0.junk) j
        = 0 + chunk (xarr m c) (warr m c) (4 * (t.val / 4)) (j 1).val := by
    intro h j
    rw [scratch_first m c (4 * (t.val / 4)) h (by omega) (VS0_0.read (Elt Ideal) VS0_0.junk)]
    refine (update_at m c ⟨4 * (t.val / 4), h⟩ (k0_pay1 (F := Ideal)) j).trans ?_
    rw [Payloads.fill_apply]
  have hg : ∀ (n : ℕ) (h : n < cfg0.N) (acc : S1x1024.Idx → EReal) (j : S1x1024.Idx),
      4 * (t.val / 4) < n → n ≤ 4 * (t.val / 4) + 3 →
      scAt0_0 m c n h acc j = acc j + chunk (xarr m c) (warr m c) n (j 1).val := by
    intro n h acc j hlo hhi
    rw [scratch_later m c n h (by omega) acc]
    exact update_at m c ⟨n, h⟩ acc j
  rw [soutsAt0_0_eq m c t]
  exact Pipeline.accAt_add_apply (N := cfg0.N) (ι := S1x1024.Idx) (β := EReal)
    (fun n h => scAt0_0 m c n h (VS0_0.read (Elt Ideal) VS0_0.junk)) (scAt0_0 m c) (fun _ => 0)
    (fun n j => chunk (xarr m c) (warr m c) n (j 1).val) (4 * (t.val / 4)) 3 ha hg (t.val % 4) (by omega) _ i

/-! ## The output block at the last row run, and what is written back -/

/-- At the last row run the output block is the (new) accumulator plus the bias block. -/
theorem out_at (c : Dev nD) (t : Fin cfg0.N) (h1 : t.val % 4 = 3) :
    (outsAt0 m c t.val t.isLt).1 = k0_pay3 (F := Ideal) ((outsAt0 m c t.val t.isLt).2) (bblk m c t) := by
  have h0 : ¬ t.val % 4 = 0 := by omega
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (congrArg (fun a => k0_pay3 (F := Ideal) a (bblk m c t))
      (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm)

/-- WHAT A WRITING POINT WRITES BACK is its block of the dense layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 32 := lt_of_lt_of_eq t.isLt (show cfg0.N = 32 from N_0)
  obtain ⟨-, -, -, -, -, -, e6, e7⟩ := index_facts t
  rw [flushed3 m c t, out_at m c t h3]
  funext y
  have hy : (y 1).val < 1024 := idx2_lt1 y
  have hcol : 1024 * (t.val / 4) + (y 1).val < 8192 := by omega
  have hi1 : ((((cfg0.win 3).blk t).view.emb y) 1).val = 1024 * (t.val / 4) + (y 1).val := by
    show win0_3.index t (1 : Fin 2) * 1024 + 1 * (y 1).val = _
    rw [e7]; omega
  have hb : bblk m c t y = m ((c : Thread nD τ).loc main_arg2) (ix1 ⟨1024 * (t.val / 4) + (y 1).val, hcol⟩) :=
    ((congrArg (bblk m c t) (eq_ix2 y)).trans (bblk_apply m c t (y 0) (y 1) hcol)).trans (barr_apply m c (y 0) _)
  show k0_pay3 (F := Ideal) ((outsAt0 m c t.val t.isLt).2) (bblk m c t) y
    = dense (m ((c : Thread nD τ).loc main_arg0)) (m ((c : Thread nD τ).loc main_arg1)) (m ((c : Thread nD τ).loc main_arg2))
        (((cfg0.win 3).blk t).view.emb y)
  rw [Payloads.epilogue_apply, scratch_at m c t y, h3,
    dense_apply _ _ _ (((cfg0.win 3).blk t).view.emb y) (t.val / 4) (y 1).val hcol hi1,
    xarr_eq m c, warr_eq m c, hb]

/-! ## The written blocks tile the result row -/

theorem mem_blk (t : Fin cfg0.N) (i : S1x8192.Idx) :
    i ∈ ((cfg0.win 3).blk t).view.set
      ↔ ∀ a : Fin 2, win0_3.index t a * S1x1024.size a ≤ (i a).val ∧ (i a).val < win0_3.index t a * S1x1024.size a + S1x1024.size a := by
  show i ∈ ((View.whole main_v1).slice (win0_3.rect t)).set ↔ _
  rw [View.set_slice_whole, Rect.mem_set_unit]
  exact Iff.rfl

/-- Column `n` lies in the block written at the last row run of column run `n / 1024`. -/
theorem covered (i : S1x8192.Idx) :
    ∃ t : Fin cfg0.N, (cfg0.win 3).flush t = true ∧ i ∈ ((cfg0.win 3).blk t).view.set := by
  have hi0 : (i 0).val < 1 := idx2_lt0 i
  have hi1 : (i 1).val < 8192 := idx2_lt1 i
  obtain ⟨t, ht⟩ : ∃ t : Fin cfg0.N, t.val = 4 * ((i 1).val / 1024) + 3 :=
    ⟨⟨4 * ((i 1).val / 1024) + 3, lt_of_lt_of_eq (by omega : 4 * ((i 1).val / 1024) + 3 < 32) (show cfg0.N = 32 from N_0).symm⟩, rfl⟩
  obtain ⟨-, -, -, -, -, -, e6, e7⟩ := index_facts t
  refine ⟨t, (flush0_3 t).mpr (by omega), ?_⟩
  rw [mem_blk]
  intro a
  match a with
  | ⟨0, _⟩ =>
    show win0_3.index t (0 : Fin 2) * 1 ≤ (i 0).val ∧ (i 0).val < win0_3.index t (0 : Fin 2) * 1 + 1
    rw [e6]; omega
  | ⟨1, _⟩ =>
    show win0_3.index t (1 : Fin 2) * 1024 ≤ (i 1).val ∧ (i 1).val < win0_3.index t (1 : Fin 2) * 1024 + 1024
    rw [e7]; omega

/-- THE RESULT ARRAY after the run is the dense layer of the arguments. -/
theorem final (c : Dev nD) : (dats m 0 c).arrAt 3 cfg0.N = result m c :=
  (dats m 0 c).arrAt_eq_of_cover 3 (result m c) (fun t hf => flushed_eq m c t hf) covered

/-- The kernel's run, with its result named. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Dense

end
-- ==== Proof.RefValue.lean ====
/-
  The reference computes the dense layer in one piece: a product of the row vector with the whole matrix,
  contracted over all 8192 rows, plus the bias laid along the row. Read at an entry `(r, n)` that is
  `(∑ₖ x[r,k] · W[k,n]) + b[n]`, the specification itself.
-/
import proofs.«168211_j68332929679499_1_alg».proof.Proof.Gen.ReferenceIdeal.Read
import proofs.«168211_j68332929679499_1_alg».proof.Proof.DenseSpec

noncomputable section

namespace Cert.ReferenceIdeal.Dense

open Cert.ReferenceIdeal Cert.ReferenceIdeal.Gen Cert.ReferenceIdeal.Read Cert.DenseSpec
open Idealize.ShloMosaic Idealize.ShloMosaic.TcCoe Idealize.ShloMosaic.ValueIdx

/-- The reference's last stage is the dense layer of its three arguments. -/
theorem stage_eq (x : (⟨S1x8192, .f32⟩ : BufTy).Contents (Elt Ideal)) (W : (⟨S8192x8192, .f32⟩ : BufTy).Contents (Elt Ideal))
    (b : (⟨S8192, .f32⟩ : BufTy).Contents (Elt Ideal)) :
    val_main_v2 (F := Ideal) x W b = dense x W b := by
  funext i
  have hl : ∀ k : Fin 8192, lidx_main_v0 i k = ix2 (i 0) k := fun k => funext fun a => by
    match a with
    | ⟨0, _⟩ => rfl
    | ⟨1, _⟩ => rfl
  have hr : ∀ k : Fin 8192, ridx_main_v0 i k = ix2 k (i 1) := fun k => funext fun a => by
    match a with
    | ⟨0, _⟩ => rfl
    | ⟨1, _⟩ => rfl
  have hb : idx_main_v1 i = ix1 (i 1) := funext fun a => by
    match a with
    | ⟨0, _⟩ => rfl
  rw [val_main_v2_apply, val_main_v0_apply, val_main_v1_apply]
  simp only [hl, hr, hb]
  rfl

end Cert.ReferenceIdeal.Dense

end
-- ==== Proof.lean ====
/-
  A dense layer `x · W + b` (x a row of 8192 entries, W 8192 × 8192, b 8192 entries) computed in blocks against
  the same layer computed in one piece, compared over the extended reals.

  The blocked program walks a grid of 8 column runs (1024 columns each) by 4 row runs (2048 rows each). For each
  column run it zeroes an accumulator, adds at each row run the product of that run's slice of `x` with that run's
  block of `W` (both operands narrowed to a 16-bit format first, which is the identity on the extended reals), and
  after the last row run writes accumulator plus the bias's slice to the result. So column `n` of the result holds
  `((((0 + S₀) + S₁) + S₂) + S₃) + b[n]` with `Sₖ` the products over rows `2048k … 2048k + 2047`.
  The one-piece program gives `(∑ over all 8192 rows) + b[n]`.

  The two agree because the four row runs partition the 8192 rows: this is a regrouping of one finite sum and
  `0 + a = a`, which hold in every additive commutative monoid, so on the extended reals too and with no entry
  assumed finite (the precondition is never opened). No operation was rewritten in passing to the extended reals,
  so nothing is owed for that step.

  Proof/DenseSpec.lean states the layer and the regrouping; Proof/Pieces.lean, Payloads.lean and Blocks.lean
  read one grid point's effect; Proof/KernelValue.lean folds the points of a column run and closes the result
  array; Proof/RefValue.lean reads the one-piece program. The termination-and-unchanged-arguments claims are the
  programs' runs with the result dropped.
-/
import proofs.«168211_j68332929679499_1_alg».proof.Defs
import proofs.«168211_j68332929679499_1_alg».proof.Proof.Gen.Kernel
import proofs.«168211_j68332929679499_1_alg».proof.Proof.Gen.Kernel.Skeleton
import proofs.«168211_j68332929679499_1_alg».proof.Proof.Gen.Kernel.Launch
import proofs.«168211_j68332929679499_1_alg».proof.Proof.Gen.Kernel.Points
import proofs.«168211_j68332929679499_1_alg».proof.Proof.Gen.Kernel.Frame
import proofs.«168211_j68332929679499_1_alg».proof.Proof.Gen.KernelIdeal
import proofs.«168211_j68332929679499_1_alg».proof.Proof.Gen.KernelIdeal.Skeleton
import proofs.«168211_j68332929679499_1_alg».proof.Proof.Gen.KernelIdeal.Launch
import proofs.«168211_j68332929679499_1_alg».proof.Proof.Gen.KernelIdeal.Points
import proofs.«168211_j68332929679499_1_alg».proof.Proof.Gen.KernelIdeal.Frame
import proofs.«168211_j68332929679499_1_alg».proof.Proof.Gen.ReferenceIdeal
import proofs.«168211_j68332929679499_1_alg».proof.Proof.Gen.Pre_finite_inputs
import proofs.«168211_j68332929679499_1_alg».proof.Proof.Gen.KernelIdeal.Value
import proofs.«168211_j68332929679499_1_alg».proof.Proof.Gen.ReferenceIdeal.Run
import proofs.«168211_j68332929679499_1_alg».proof.Proof.Gen.ReferenceIdeal.Read
import proofs.«168211_j68332929679499_1_alg».proof.Proof.KernelValue
import proofs.«168211_j68332929679499_1_alg».proof.Proof.RefValue
import Idealize.ShloMosaic.Adequacy
import Idealize.ShloMosaic.Init

noncomputable section

namespace Cert.Proof

open Idealize.ShloMosaic Idealize.SL.Sem

/-- The word-level blocked program terminates without fault and leaves its arguments as launched. -/
theorem frame_kernel : Cert.frame_Kernel := fun m ρ _ => Cert.Kernel.Gen.frame m ρ

/-- So does the blocked program over the extended reals. -/
theorem frame_kernel_ideal : Cert.frame_KernelIdeal := fun m ρ _ => Cert.KernelIdeal.Gen.frame m ρ

/-- So does the one-piece program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten in passing to the extended reals. -/
theorem preserves : Cert.preserves_Kernel_KernelIdeal := trivial

/-- From arguments that agree, both programs end with the dense layer of those arguments in their result. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Dense.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
